-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x200 : Shape := ⟨2, ![100, 200]⟩
abbrev S200 : Shape := ⟨1, ![200]⟩
abbrev S200x16 : Shape := ⟨2, ![200, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x200 : S_.BroadcastsInDim S100x200 (![] : Fin 0 → Fin S100x200.rank)
  reducesTo_S100x200_S_d0_1 : S100x200.ReducesTo [0, 1] S_
  bcast_S_S200 : S_.BroadcastsInDim S200 (![] : Fin 0 → Fin S200.rank)
  reducesTo_S200_S_d0 : S200.ReducesTo [0] S_
  bcast_S_S200x16 : S_.BroadcastsInDim S200x16 (![] : Fin 0 → Fin S200x16.rank)
  reducesTo_S200x16_S_d0_1 : S200x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S200 .f32) (main_arg6 : FVec F S200x16 .f32) (main_arg7 : FVec F S16 .f32) (main_v13 : IVec S_ 1) (main_v16 : IVec S100x200 1) : IVec S_ 1 :=
  let main_c_5 : IVec S_ 1 := constantI S_ 1 1#1
  let main_v17 : IVec S_ 1 := (fun x v => Host.reduce IntOp.andi x v reducesTo_S100x200_S_d0_1 h_S_) main_v16 main_c_5
  let main_v18 : IVec S_ 1 := andi main_v13 main_v17
  let main_v19 : FVec F S200 .f32 := Host.absf main_arg5
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200x16 .f32 := Host.absf main_arg6
  let main_cst_8 : FVec F S_ .f32 := constant S_ .f32 0x7F800000#32
  let main_v25 : FVec F S200x16 .f32 := broadcastInDim S200x16 ![] bcast_S_S200x16 main_cst_8
  let main_v26 : IVec S200x16 1 := cmpf .olt main_v24 main_v25
  let main_c_9 : IVec S_ 1 := constantI S_ 1 1#1
  let main_v27 : IVec S_ 1 := (fun x v => Host.reduce IntOp.andi x v reducesTo_S200x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x100 .f32) (main_arg3 : FVec F S100 .f32) (main_arg4 : FVec F S100x200 .f32) (main_arg5 : FVec F S200 .f32) (main_arg6 : FVec F S200x16 .f32) (main_arg7 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x100 .f32 := Host.absf main_arg2
  let main_cst_0 : FVec F S_ .f32 := constant S_ .f32 0x7F800000#32
  let main_v5 : FVec F S128x100 .f32 := broadcastInDim S128x100 ![] bcast_S_S128x100 main_cst_0
  let main_v6 : IVec S128x100 1 := cmpf .olt main_v4 main_v5
  let main_c_1 : IVec S_ 1 := constantI S_ 1 1#1
  let main_v7 : IVec S_ 1 := (fun x v => Host.reduce IntOp.andi x v reducesTo_S128x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x200 .f32 := Host.absf main_arg4
  let main_cst_4 : FVec F S_ .f32 := constant S_ .f32 0x7F800000#32
  let main_v15 : FVec F S100x200 .f32 := broadcastInDim S100x200 ![] bcast_S_S100x200 main_cst_4
  let main_v16 : IVec S100x200 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x200 : Shape := ⟨2, ![100, 200]⟩
abbrev S200 : Shape := ⟨1, ![200]⟩
abbrev S200x16 : Shape := ⟨2, ![200, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x100 : Shape := ⟨2, ![50000, 100]⟩
abbrev S5000x128 : Shape := ⟨2, ![5000, 128]⟩
abbrev S5000x100 : Shape := ⟨2, ![5000, 100]⟩
abbrev S850000x100 : Shape := ⟨2, ![850000, 100]⟩
abbrev S1x100 : Shape := ⟨2, ![1, 100]⟩
abbrev S50000x200 : Shape := ⟨2, ![50000, 200]⟩
abbrev S5000x200 : Shape := ⟨2, ![5000, 200]⟩
abbrev S850000x200 : Shape := ⟨2, ![850000, 200]⟩
abbrev S1x200 : Shape := ⟨2, ![1, 200]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 88
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x100, .f32⟩
  | .hbm, ⟨3, _⟩ => ⟨S100, .f32⟩
  | .hbm, ⟨4, _⟩ => ⟨S100x200, .f32⟩
  | .hbm, ⟨5, _⟩ => ⟨S200, .f32⟩
  | .hbm, ⟨6, _⟩ => ⟨S200x16, .f32⟩
  | .hbm, ⟨7, _⟩ => ⟨S16, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x100, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x100, .f32⟩
  | .hbm, ⟨58, _⟩ => ⟨S850000x1, .f32⟩
  | .hbm, ⟨59, _⟩ => ⟨S850000x100, .f32⟩
  | .hbm, ⟨60, _⟩ => ⟨S850000x100, .f32⟩
  | .hbm, ⟨61, _⟩ => ⟨S_, .f32⟩
  | .hbm, ⟨62, _⟩ => ⟨S50000x100, .f32⟩
  | .hbm, ⟨63, _⟩ => ⟨S850000x1, .i32⟩
  | .hbm, ⟨64, _⟩ => ⟨S50000x100, .f32⟩
  | .hbm, ⟨65, _⟩ => ⟨S1x100, .f32⟩
  | .hbm, ⟨66, _⟩ => ⟨S50000x100, .f32⟩
  | .hbm, ⟨67, _⟩ => ⟨S50000x200, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x200, .f32⟩
  | .hbm, ⟨77, _⟩ => ⟨S850000x1, .f32⟩
  | .hbm, ⟨78, _⟩ => ⟨S850000x200, .f32⟩
  | .hbm, ⟨79, _⟩ => ⟨S850000x200, .f32⟩
  | .hbm, ⟨80, _⟩ => ⟨S_, .f32⟩
  | .hbm, ⟨81, _⟩ => ⟨S50000x200, .f32⟩
  | .hbm, ⟨82, _⟩ => ⟨S850000x1, .i32⟩
  | .hbm, ⟨83, _⟩ => ⟨S50000x200, .f32⟩
  | .hbm, ⟨84, _⟩ => ⟨S1x200, .f32⟩
  | .hbm, ⟨85, _⟩ => ⟨S50000x200, .f32⟩
  | .hbm, ⟨86, _⟩ => ⟨S1x16, .f32⟩
  | .hbm, ⟨87, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x100, .f32⟩
  | .local _ .vmem, ⟨3, _⟩ => ⟨S5000x100, .f32⟩
  | .local _ .vmem, ⟨4, _⟩ => ⟨S5000x100, .f32⟩
  | .local _ .vmem, ⟨5, _⟩ => ⟨S5000x100, .f32⟩
  | .local _ .vmem, ⟨6, _⟩ => ⟨S5000x100, .f32⟩
  | .local _ .vmem, ⟨7, _⟩ => ⟨S1x100, .f32⟩
  | .local _ .vmem, ⟨8, _⟩ => ⟨S5000x100, .f32⟩
  | .local _ .vmem, ⟨9, _⟩ => ⟨S5000x100, .f32⟩
  | .local _ .vmem, ⟨10, _⟩ => ⟨S5000x100, .f32⟩
  | .local _ .vmem, ⟨11, _⟩ => ⟨S5000x100, .f32⟩
  | .local _ .vmem, ⟨12, _⟩ => ⟨S100x200, .f32⟩
  | .local _ .vmem, ⟨13, _⟩ => ⟨S5000x200, .f32⟩
  | .local _ .vmem, ⟨14, _⟩ => ⟨S5000x200, .f32⟩
  | .local _ .vmem, ⟨15, _⟩ => ⟨S5000x200, .f32⟩
  | .local _ .vmem, ⟨16, _⟩ => ⟨S5000x200, .f32⟩
  | .local _ .vmem, ⟨17, _⟩ => ⟨S1x200, .f32⟩
  | .local _ .vmem, ⟨18, _⟩ => ⟨S5000x200, .f32⟩
  | .local _ .vmem, ⟨19, _⟩ => ⟨S5000x200, .f32⟩
  | .local _ .vmem, ⟨20, _⟩ => ⟨S5000x200, .f32⟩
  | .local _ .vmem, ⟨21, _⟩ => ⟨S5000x200, .f32⟩
  | .local _ .vmem, ⟨22, _⟩ => ⟨S200x16, .f32⟩
  | .local _ .vmem, ⟨23, _⟩ => ⟨S1x16, .f32⟩
  | .local _ .vmem, ⟨24, _⟩ => ⟨S5000x16, .f32⟩
  | .local _ .vmem, ⟨25, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S100x200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x200 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x200 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x200 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S200x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x100_S128x100_0_0 : ∀ a, (![0, 0] : Fin 2 → Nat) a + S128x100.size a ≤ S128x100.size a
  h_S128x100 : 0 < S128x100.numel
  inb_S5000x100_S5000x100_0_0 : ∀ a, (![0, 0] : Fin 2 → Nat) a + S5000x100.size a ≤ S5000x100.size a
  h_S5000x100 : 0 < S5000x100.numel
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  shapeCasts_S100_S1x100 : S100.ShapeCasts S1x100
  shapeCasts_S5000x100_S5000x100 : S5000x100.ShapeCasts S5000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  inb_S100x200_S100x200_0_0 : ∀ a, (![0, 0] : Fin 2 → Nat) a + S100x200.size a ≤ S100x200.size a
  h_S100x200 : 0 < S100x200.numel
  inb_S5000x200_S5000x200_0_0 : ∀ a, (![0, 0] : Fin 2 → Nat) a + S5000x200.size a ≤ S5000x200.size a
  h_S5000x200 : 0 < S5000x200.numel
  bcast_S850000x1_S850000x200_0_1 : S850000x1.BroadcastsInDim S850000x200 (![0, 1] : Fin 2 → Fin S850000x200.rank)
  bcast_S_S50000x200 : S_.BroadcastsInDim S50000x200 (![] : Fin 0 → Fin S50000x200.rank)
  shapeCasts_S200_S1x200 : S200.ShapeCasts S1x200
  shapeCasts_S5000x200_S5000x200 : S5000x200.ShapeCasts S5000x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S5000x200 : S1x200.Broadcasts S5000x200
  shapeCasts_S16_S1x16 : S16.ShapeCasts S1x16
  inb_S200x16_S200x16_0_0 : ∀ a, (![0, 0] : Fin 2 → Nat) a + S200x16.size a ≤ S200x16.size a
  h_S200x16 : 0 < S200x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x100_S5000x100_1_0_0_1_n_n_wf : DotDims.WF S5000x128 S128x100 S5000x100 [1] [0] [0] [1] [] []
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S5000x100_S100x200_S5000x200_1_0_0_1_n_n_wf : DotDims.WF S5000x100 S100x200 S5000x200 [1] [0] [0] [1] [] []
  gather_S50000x200_S850000x1_S850000x200_1_0_n_n_0_1_1200_wf : GatherDims.WF S50000x200 S850000x1 S850000x200 [1] [0] [] [0] [] 1 ![1, 200]
  scatter_S50000x200_S850000x1_S850000x200_1_0_0_1_wf : ScatterDims.WF S50000x200 S850000x1 S850000x200 [1] [0] [0] 1
  dot_S5000x200_S200x16_S5000x16_1_0_0_1_n_n_wf : DotDims.WF S5000x200 S200x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x100.size a ≤ S128x100.size a
  hwx0_1 : ∀ i : grid0.Coords, EltTy.bits .f32 = 32 ∨ (Rect.block (s := S128x100) S128x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x100.size a ≤ S50000x100.size a
  hwx0_2 : ∀ i : grid0.Coords, EltTy.bits .f32 = 32 ∨ (Rect.block (s := S50000x100) S5000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x100.size a ≤ S1x100.size a
  hwx1_1 : ∀ i : grid1.Coords, EltTy.bits .f32 = 32 ∨ (Rect.block (s := S1x100) S1x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x100.size a ≤ S50000x100.size a
  hwx1_2 : ∀ i : grid1.Coords, EltTy.bits .f32 = 32 ∨ (Rect.block (s := S50000x100) S5000x100.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S50000x100.size a
  hwx2_0 : ∀ i : grid2.Coords, EltTy.bits .f32 = 32 ∨ (Rect.block (s := S50000x100) S5000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S100x200.size a ≤ S100x200.size a
  hwx2_1 : ∀ i : grid2.Coords, EltTy.bits .f32 = 32 ∨ (Rect.block (s := S100x200) S100x200.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x200.size a ≤ S50000x200.size a
  hwx2_2 : ∀ i : grid2.Coords, EltTy.bits .f32 = 32 ∨ (Rect.block (s := S50000x200) S5000x200.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x200.size a ≤ S50000x200.size a
  hwx3_0 : ∀ i : grid3.Coords, EltTy.bits .f32 = 32 ∨ (Rect.block (s := S50000x200) S5000x200.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x200.size a ≤ S1x200.size a
  hwx3_1 : ∀ i : grid3.Coords, EltTy.bits .f32 = 32 ∨ (Rect.block (s := S1x200) S1x200.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x200.size a ≤ S50000x200.size a
  hwx3_2 : ∀ i : grid3.Coords, EltTy.bits .f32 = 32 ∨ (Rect.block (s := S50000x200) S5000x200.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x200.size a ≤ S50000x200.size a
  hwx4_0 : ∀ i : grid4.Coords, EltTy.bits .f32 = 32 ∨ (Rect.block (s := S50000x200) S5000x200.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S200x16.size a ≤ S200x16.size a
  hwx4_1 : ∀ i : grid4.Coords, EltTy.bits .f32 = 32 ∨ (Rect.block (s := S200x16) S200x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S50000x16.size a
  hwx4_3 : ∀ i : grid4.Coords, EltTy.bits .f32 = 32 ∨ (Rect.block (s := S50000x16) S5000x16.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x100_S5000x100_1_0_0_1_n_n : DotDims S5000x128 S128x100 S5000x100 where
  lhsContracting := [1]
  rhsContracting := [0]
  lhsNonContracting := [0]
  rhsNonContracting := [1]
  lhsBatch := []
  rhsBatch := []
  wf := dot_S5000x128_S128x100_S5000x100_1_0_0_1_n_n_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S5000x100_S100x200_S5000x200_1_0_0_1_n_n : DotDims S5000x100 S100x200 S5000x200 where
  lhsContracting := [1]
  rhsContracting := [0]
  lhsNonContracting := [0]
  rhsNonContracting := [1]
  lhsBatch := []
  rhsBatch := []
  wf := dot_S5000x100_S100x200_S5000x200_1_0_0_1_n_n_wf
def gather_S50000x200_S850000x1_S850000x200_1_0_n_n_0_1_1200 : GatherDims S50000x200 S850000x1 S850000x200 where
  offsetDims := [1]
  collapsedSliceDims := [0]
  operandBatchingDims := []
  startIndicesBatchingDims := []
  startIndexMap := [0]
  indexVectorDim := 1
  sliceSizes := ![1, 200]
  wf := gather_S50000x200_S850000x1_S850000x200_1_0_n_n_0_1_1200_wf
def scatter_S50000x200_S850000x1_S850000x200_1_0_0_1 : ScatterDims S50000x200 S850000x1 S850000x200 where
  updateWindowDims := [1]
  insertedWindowDims := [0]
  scatterDimsToOperandDims := [0]
  indexVectorDim := 1
  wf := scatter_S50000x200_S850000x1_S850000x200_1_0_0_1_wf
def dot_S5000x200_S200x16_S5000x16_1_0_0_1_n_n : DotDims S5000x200 S200x16 S5000x16 where
  lhsContracting := [1]
  rhsContracting := [0]
  lhsNonContracting := [0]
  rhsNonContracting := [1]
  lhsBatch := []
  rhsBatch := []
  wf := dot_S5000x200_S200x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S100x200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x200.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x200.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x200.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S200x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x200 : Shape := ⟨2, ![100, 200]⟩
abbrev S200 : Shape := ⟨1, ![200]⟩
abbrev S200x16 : Shape := ⟨2, ![200, 16]⟩
abbrev S16 : Shape := ⟨1, ![16]⟩
abbrev S1x800000 : Shape := ⟨2, ![1, 800000]⟩
abbrev S800000 : Shape := ⟨1, ![800000]⟩
abbrev S50000x100 : Shape := ⟨2, ![50000, 100]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x100 : Shape := ⟨2, ![850000, 100]⟩
abbrev S1x100 : Shape := ⟨2, ![1, 100]⟩
abbrev S50000x200 : Shape := ⟨2, ![50000, 200]⟩
abbrev S850000x200 : Shape := ⟨2, ![850000, 200]⟩
abbrev S1x200 : Shape := ⟨2, ![1, 200]⟩
abbrev S50000x16 : Shape := ⟨2, ![50000, 16]⟩
abbrev S1x16 : Shape := ⟨2, ![1, 16]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S128x100, .f32⟩
  | 3 => ⟨S100, .f32⟩
  | 4 => ⟨S100x200, .f32⟩
  | 5 => ⟨S200, .f32⟩
  | 6 => ⟨S200x16, .f32⟩
  | 7 => ⟨S16, .f32⟩
  | 8 => ⟨S1x800000, .i32⟩
  | 9 => ⟨S800000, .i32⟩
  | 10 => ⟨S1x800000, .i32⟩
  | 11 => ⟨S800000, .i32⟩
  | 12 => ⟨S50000x100, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x100, .f32⟩
  | 58 => ⟨S850000x1, .f32⟩
  | 59 => ⟨S850000x100, .f32⟩
  | 60 => ⟨S850000x100, .f32⟩
  | 61 => ⟨S_, .f32⟩
  | 62 => ⟨S50000x100, .f32⟩
  | 63 => ⟨S850000x1, .i32⟩
  | 64 => ⟨S50000x100, .f32⟩
  | 65 => ⟨S1x100, .f32⟩
  | 66 => ⟨S50000x100, .f32⟩
  | 67 => ⟨S50000x100, .f32⟩
  | 68 => ⟨S_, .f32⟩
  | 69 => ⟨S50000x100, .f32⟩
  | 70 => ⟨S50000x100, .f32⟩
  | 71 => ⟨S50000x200, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x200, .f32⟩
  | 117 => ⟨S850000x1, .f32⟩
  | 118 => ⟨S850000x200, .f32⟩
  | 119 => ⟨S850000x200, .f32⟩
  | 120 => ⟨S_, .f32⟩
  | 121 => ⟨S50000x200, .f32⟩
  | 122 => ⟨S850000x1, .i32⟩
  | 123 => ⟨S50000x200, .f32⟩
  | 124 => ⟨S1x200, .f32⟩
  | 125 => ⟨S50000x200, .f32⟩
  | 126 => ⟨S50000x200, .f32⟩
  | 127 => ⟨S_, .f32⟩
  | _ => ⟨S50000x128, .f32⟩

abbrev hbmTy0_1 (i : Nat) : BufTy := match i % 128 with
  | 0 => ⟨S50000x200, .f32⟩
  | 1 => ⟨S50000x200, .f32⟩
  | 2 => ⟨S50000x16, .f32⟩
  | 3 => ⟨S1x16, .f32⟩
  | 4 => ⟨S50000x16, .f32⟩
  | 5 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S850000x1_S850000x200_0_1 : S850000x1.BroadcastsInDim S850000x200 (![0, 1] : Fin 2 → Fin S850000x200.rank)
  bcast_S_S50000x200 : S_.BroadcastsInDim S50000x200 (![] : Fin 0 → Fin S50000x200.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x128_S128x100_S50000x100_1_0_0_1_n_n_wf : DotDims.WF S50000x128 S128x100 S50000x100 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S50000x100_S100x200_S50000x200_1_0_0_1_n_n_wf : DotDims.WF S50000x100 S100x200 S50000x200 [1] [0] [0] [1] [] []
  gather_S50000x200_S850000x1_S850000x200_1_0_n_n_0_1_1200_wf : GatherDims.WF S50000x200 S850000x1 S850000x200 [1] [0] [] [0] [] 1 ![1, 200]
  scatter_S50000x200_S850000x1_S850000x200_1_0_0_1_wf : ScatterDims.WF S50000x200 S850000x1 S850000x200 [1] [0] [0] 1
  dot_S50000x200_S200x16_S50000x16_1_0_0_1_n_n_wf : DotDims.WF S50000x200 S200x16 S50000x16 [1] [0] [0] [1] [] []

variable [Facts₀]

def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S50000x100_S100x200_S50000x200_1_0_0_1_n_n : DotDims S50000x100 S100x200 S50000x200 where
  lhsContracting := [1]
  rhsContracting := [0]
  lhsNonContracting := [0]
  rhsNonContracting := [1]
  lhsBatch := []
  rhsBatch := []
  wf := dot_S50000x100_S100x200_S50000x200_1_0_0_1_n_n_wf
def gather_S50000x200_S850000x1_S850000x200_1_0_n_n_0_1_1200 : GatherDims S50000x200 S850000x1 S850000x200 where
  offsetDims := [1]
  collapsedSliceDims := [0]
  operandBatchingDims := []
  startIndicesBatchingDims := []
  startIndexMap := [0]
  indexVectorDim := 1
  sliceSizes := ![1, 200]
  wf := gather_S50000x200_S850000x1_S850000x200_1_0_n_n_0_1_1200_wf
def scatter_S50000x200_S850000x1_S850000x200_1_0_0_1 : ScatterDims S50000x200 S850000x1 S850000x200 where
  updateWindowDims := [1]
  insertedWindowDims := [0]
  scatterDimsToOperandDims := [0]
  indexVectorDim := 1
  wf := scatter_S50000x200_S850000x1_S850000x200_1_0_0_1_wf
def dot_S50000x200_S200x16_S50000x16_1_0_0_1_n_n : DotDims S50000x200 S200x16 S50000x16 where
  lhsContracting := [1]
  rhsContracting := [0]
  lhsNonContracting := [0]
  rhsNonContracting := [1]
  lhsBatch := []
  rhsBatch := []
  wf := dot_S50000x200_S200x16_S50000x16_1_0_0_1_n_n_wf

class Facts : Prop extends Facts₀ where

variable [Facts]
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.Spec.lean ====
/-
  The three dense stages of the network, as functions of whole arrays over the extended reals, entry by entry.

  A two-layer graph convolution followed by a linear head uses three kinds of dense stage, each acting on the rows of
  a node-feature matrix independently of one another:
  * `dense x w`: the matrix product, entry `(r, c)` the sum over `k` of `x (r, k) * w (k, c)`;
  * `biasRelu x b`: a bias row added to every row, then every entry clipped below at zero;
  * `denseBias x w b`: the product with a bias row added to every row.
  Because each acts row by row, computing a stage on a block of consecutive rows gives the same rows of the result
  as computing it on the whole matrix: that is all the tiling of the node axis into blocks of 5000 rows uses.
  The bias is kept as a one-row matrix `[1, N]`, the form in which a tiled stage receives it.
-/
import Idealize.ShloMosaic.Lib.ValueIdx
import Idealize.ShloMosaic.PureOps.Ideal

noncomputable section

namespace Cert.Gcn

open Idealize.ShloMosaic Idealize.ShloMosaic.ValueIdx

variable {M K N : Nat}

/-- The matrix product: entry `(r, c)` is the sum over `k` of `x (r, k) * w (k, c)`. -/
def dense (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- A bias row added to every row, then every entry clipped below at zero (the zero kept as its word). -/
def biasRelu (x : FVec Ideal ⟨2, ![M, N]⟩ .f32) (b : FVec Ideal ⟨2, ![1, N]⟩ .f32) : FVec Ideal ⟨2, ![M, N]⟩ .f32 :=
  fun i => max (x i + b (ix2 (0 : Fin 1) (i 1))) (Ideal.ofBits .f32 0x00000000#32)

/-- The matrix product with a bias row added to every row. -/
def denseBias (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => dense x w i + b (ix2 (0 : Fin 1) (i 1))

end Cert.Gcn

end
-- ==== Proof.Region0.lean ====
/-
  The first dense product, `x · W1`, as the tiled stage leaves it in its result array.

  The stage runs over ten blocks of 5000 consecutive rows of the node-feature matrix `x : [50000, 128]`; at block `t`
  it multiplies rows `5000 t … 5000 t + 4999` of `x` by the whole weight matrix `W1 : [128, 100]` (the casts to the short
  float format are the identity over the extended reals, and the product starts from the zero accumulator) and writes
  the `[5000, 100]` result back as rows `5000 t …` of the output. Entry `(p, q)` of that block is
  `∑ k, x (5000 t + p, k) * W1 (k, q)`, which is entry `(5000 t + p, q)` of the whole product `dense x W1`; the ten
  blocks tile the output, so the output array ends holding `dense x W1`.
  Stated at any contents `V` of the buffers at the stage's entry.
-/
import proofs.«180696_j83958020702803_1_alg».proof.Proof.Gen.KernelIdeal.Frame
import proofs.«180696_j83958020702803_1_alg».proof.Proof.LibPlainMatmul
import proofs.«180696_j83958020702803_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense0

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores is its payload: one store through the whole buffer, of loads through whole buffers. -/
theorem out_eq (x0 : Vec Ideal S5000x128 .f32) (x1 : Vec Ideal S128x100 .f32) :
    out0_2 (F := Ideal) x0 x1 = k0_pay1 x0 x1 := by
  unfold out0_2
  rw [View.canon_unit_zero hz]
  simp only [View.ld_unit_zero (S := S5000x128) hz, View.ld_unit_zero (S := S128x100) hz]

/-- The payload at row `p`, column `q` of the block: the sum over `k` of the row block's `(p, k)` times the weight's `(k, q)`. -/
theorem payload_apply (x0 : Vec Ideal S5000x128 .f32) (x1 : Vec Ideal S128x100 .f32) (p : Fin 5000) (q : Fin 100) :
    k0_pay1 (F := Ideal) x0 x1 (ix2 p q) = ∑ k : Fin 128, x0 (ix2 p k) * x1 (ix2 k q) := by
  unfold k0_pay1
  exact Cert.Lib.PlainMatmul.matmul_zero_apply (M := 5000) (K := 128) (N := 100) none _ _ p q

/-- The printed index maps over the grid: the row blocks of the input and of the output move with the point, the
    weight's one block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of the stage against the whole product: if `x0` holds rows `5000 T …` of `X` and `x1` is `W`, the
    payload's entry `y` is the whole product's entry at row `5000 T + y 0`, column `y 1`. -/
theorem block_apply (X : FVec Ideal S50000x128 .f32) (W : FVec Ideal S128x100 .f32)
    (x0 : Vec Ideal S5000x128 .f32) (x1 : Vec Ideal S128x100 .f32) (T : Nat)
    (hx0 : ∀ (y : S5000x128.Idx) (k : S50000x128.Idx), (k 0).val = T * 5000 + (y 0).val → (k 1).val = (y 1).val → x0 y = X k)
    (hx1 : ∀ y : S128x100.Idx, x1 y = W y)
    (y : S5000x100.Idx) (i : S50000x100.Idx) (hi0 : (i 0).val = T * 5000 + (y 0).val) (hi1 : (i 1).val = (y 1).val) :
    k0_pay1 (F := Ideal) x0 x1 y = dense X W i := by
  obtain ⟨p, q, rfl⟩ : ∃ (p : Fin 5000) (q : Fin 100), y = ix2 p q := ⟨y 0, y 1, eq_ix2 y⟩
  rw [payload_apply]
  unfold dense
  refine Finset.sum_congr rfl fun k _ => ?_
  rw [hx1, hx0 (ix2 p k) (ix2 (i 0) k) hi0 rfl]
  congr 2
  exact congrArg (ix2 k) (Fin.ext hi1.symm)

/-- WHAT POINT `t` WRITES BACK is block `t` of the whole product of the arrays as the stage finds them: the input's row
    block sits at rows `5000 t …` of its array, the weight's one block is its whole array, and the output's block goes
    to rows `5000 t …`. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2, out_eq]
  obtain ⟨e00, e01, e10, e11, e20, e21⟩ := idx_facts t
  funext j
  show k0_pay1 (F := Ideal) (iblk0 V c 0 t) (iblk0 V c 1 t) j
    = dense (V c main_arg0) (V c main_arg2) (((cfg0.win 2).blk t).view.emb j)
  refine block_apply (V c main_arg0) (V c main_arg2) (iblk0 V c 0 t) (iblk0 V c 1 t) t.val (fun y k h0 h1 => ?_) (fun y => ?_) j
    (((cfg0.win 2).blk t).view.emb j) ?_ ?_
  · show V c main_arg0 (((cfg0.win 0).blk t).view.emb y) = V c main_arg0 k
    refine congrArg (V c main_arg0) (funext fun a => Fin.ext ?_)
    match a with
    | ⟨0, _⟩ => show win0_0.index t (0 : Fin 2) * 5000 + 1 * (y 0).val = (k 0).val; omega
    | ⟨1, _⟩ => show win0_0.index t (1 : Fin 2) * 128 + 1 * (y 1).val = (k 1).val; omega
  · show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 100 + 1 * (y 1).val = (y 1).val; omega
  · show win0_2.index t (0 : Fin 2) * 5000 + 1 * (j 0).val = t.val * 5000 + (j 0).val; omega
  · show win0_2.index t (1 : Fin 2) * 100 + 1 * (j 1).val = (j 1).val; omega

/-- An index of the output array is in point `t`'s block iff each coordinate is in the block's range on its axis. -/
theorem mem_blk (t : Fin cfg0.N) (i : S50000x100.Idx) :
    i ∈ ((cfg0.win 2).blk t).view.set ↔ ∀ a : Fin 2, win0_2.index t a * S5000x100.size a ≤ (i a).val
      ∧ (i a).val < win0_2.index t a * S5000x100.size a + S5000x100.size a := by
  show i ∈ ((View.whole main_v30).slice (win0_2.rect t)).set ↔ _
  rw [View.set_slice_whole, Rect.mem_set_unit]
  exact Iff.rfl

/-- The ten row blocks tile the output: row `r` is in the block of point `r / 5000`. -/
theorem cover (i : S50000x100.Idx) :
    ∃ t : Fin cfg0.N, (cfg0.win 2).flush t = true ∧ i ∈ ((cfg0.win 2).blk t).view.set := by
  have hi0 : (i 0).val < 50000 := (i 0).isLt
  have hi1 : (i 1).val < 100 := (i 1).isLt
  have hN : cfg0.N = 10 := N_0
  let t : Fin cfg0.N := ⟨(i 0).val / 5000, by omega⟩
  obtain ⟨-, -, -, -, e20, e21⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 100 ≤ (i 1).val ∧ (i 1).val < win0_2.index t (1 : Fin 2) * 100 + 100; omega

/-- THE OUTPUT ARRAY after the stage: the whole product of the input array and the weight array as the stage found them. -/
theorem final (c : Dev nD) : (dat0 V c).arrAt 2 cfg0.N = dense (V c main_arg0) (V c main_arg2) :=
  (dat0 V c).arrAt_eq_of_cover 2 (dense (V c main_arg0) (V c main_arg2)) (fun t _ => flushed_eq V c t) cover

end Cert.KernelIdeal.Dense0

end
-- ==== Proof.Region1.lean ====
/-
  The first layer's bias and clipping, `max (agg + b1, 0)`, as the tiled stage leaves it in its result array.

  The stage runs over ten blocks of 5000 consecutive rows of the aggregated messages `agg : [50000, 100]`; at block `t` it
  adds the bias, held as the one-row matrix `b : [1, 100]` and spread over the block's rows, to rows
  `5000 t … 5000 t + 4999` of `agg`, clips every entry below at zero, and writes the `[5000, 100]` result back as rows
  `5000 t …` of the output. Entry `(p, q)` of that block is `max (agg (5000 t + p, q) + b (0, q)) 0`, entry
  `(5000 t + p, q)` of `biasRelu agg b`; the ten blocks tile the output, so the output array ends holding `biasRelu agg b`.
  Stated at any contents `V` of the buffers at the stage's entry.
-/
import proofs.«180696_j83958020702803_1_alg».proof.Proof.Gen.KernelIdeal.Frame
import proofs.«180696_j83958020702803_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Clip1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores is its payload: one store through the whole buffer, of loads through whole buffers. -/
theorem out_eq (x0 : Vec Ideal S5000x100 .f32) (x1 : Vec Ideal S1x100 .f32) :
    out1_2 (F := Ideal) x0 x1 = k1_pay1 x0 x1 := by
  unfold out1_2
  rw [View.canon_unit_zero hz]
  simp only [View.ld_unit_zero (S := S5000x100) hz, View.ld_unit_zero (S := S1x100) hz]

/-- The payload at row `p`, column `q` of the block: the block's entry plus the bias row's entry at `q`, clipped below at
    zero (the same-shape casts are the identity; the one-row bias is spread over the rows). -/
theorem payload_apply (x0 : Vec Ideal S5000x100 .f32) (x1 : Vec Ideal S1x100 .f32) (p : Fin 5000) (q : Fin 100) :
    k1_pay1 (F := Ideal) x0 x1 (ix2 p q) = max (x0 (ix2 p q) + x1 (ix2 (0 : Fin 1) q)) (Ideal.ofBits .f32 0x00000000#32) := by
  unfold k1_pay1
  simp only [shapeCast_self]
  show max (x0 (ix2 p q) + broadcastTo S5000x100 x1 broadcasts_S1x100_S5000x100 (ix2 p q)) _ = _
  rw [broadcastTo_1b_ab_apply]
  rfl

/-- The printed index maps over the grid: the row blocks of the input and of the output move with the point, the bias
    row's one block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block of the stage against the whole stage: if `x0` holds rows `5000 T …` of `X` and `x1` is the bias row `B`,
    the payload's entry `y` is the whole stage's entry at row `5000 T + y 0`, column `y 1`. -/
theorem block_apply (X : FVec Ideal S50000x100 .f32) (B : FVec Ideal S1x100 .f32)
    (x0 : Vec Ideal S5000x100 .f32) (x1 : Vec Ideal S1x100 .f32) (T : Nat)
    (hx0 : ∀ (y : S5000x100.Idx) (k : S50000x100.Idx), (k 0).val = T * 5000 + (y 0).val → (k 1).val = (y 1).val → x0 y = X k)
    (hx1 : ∀ y : S1x100.Idx, x1 y = B y)
    (y : S5000x100.Idx) (i : S50000x100.Idx) (hi0 : (i 0).val = T * 5000 + (y 0).val) (hi1 : (i 1).val = (y 1).val) :
    k1_pay1 (F := Ideal) x0 x1 y = biasRelu X B i := by
  obtain ⟨p, q, rfl⟩ : ∃ (p : Fin 5000) (q : Fin 100), y = ix2 p q := ⟨y 0, y 1, eq_ix2 y⟩
  have hq : i 1 = q := Fin.ext hi1
  rw [payload_apply]
  unfold biasRelu
  rw [hx1, hx0 (ix2 p q) i hi0 hi1, hq]

/-- WHAT POINT `t` WRITES BACK is block `t` of the whole stage of the arrays as the stage finds them: the input's row
    block sits at rows `5000 t …` of its array, the bias row's one block is its whole array, and the output's block goes
    to rows `5000 t …`. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2, out_eq]
  obtain ⟨e00, e01, e10, e11, e20, e21⟩ := idx_facts t
  funext j
  show k1_pay1 (F := Ideal) (iblk1 V c 0 t) (iblk1 V c 1 t) j
    = biasRelu (V c main_v43) (V c main_v44) (((cfg1.win 2).blk t).view.emb j)
  refine block_apply (V c main_v43) (V c main_v44) (iblk1 V c 0 t) (iblk1 V c 1 t) t.val (fun y k h0 h1 => ?_) (fun y => ?_) j
    (((cfg1.win 2).blk t).view.emb j) ?_ ?_
  · show V c main_v43 (((cfg1.win 0).blk t).view.emb y) = V c main_v43 k
    refine congrArg (V c main_v43) (funext fun a => Fin.ext ?_)
    match a with
    | ⟨0, _⟩ => show win1_0.index t (0 : Fin 2) * 5000 + 1 * (y 0).val = (k 0).val; omega
    | ⟨1, _⟩ => show win1_0.index t (1 : Fin 2) * 100 + 1 * (y 1).val = (k 1).val; omega
  · show V c main_v44 (((cfg1.win 1).blk t).view.emb y) = V c main_v44 y
    refine congrArg (V c main_v44) (funext fun a => Fin.ext ?_)
    match a with
    | ⟨0, _⟩ => show win1_1.index t (0 : Fin 2) * 1 + 1 * (y 0).val = (y 0).val; omega
    | ⟨1, _⟩ => show win1_1.index t (1 : Fin 2) * 100 + 1 * (y 1).val = (y 1).val; omega
  · show win1_2.index t (0 : Fin 2) * 5000 + 1 * (j 0).val = t.val * 5000 + (j 0).val; omega
  · show win1_2.index t (1 : Fin 2) * 100 + 1 * (j 1).val = (j 1).val; omega

/-- An index of the output array is in point `t`'s block iff each coordinate is in the block's range on its axis. -/
theorem mem_blk (t : Fin cfg1.N) (i : S50000x100.Idx) :
    i ∈ ((cfg1.win 2).blk t).view.set ↔ ∀ a : Fin 2, win1_2.index t a * S5000x100.size a ≤ (i a).val
      ∧ (i a).val < win1_2.index t a * S5000x100.size a + S5000x100.size a := by
  show i ∈ ((View.whole main_v45).slice (win1_2.rect t)).set ↔ _
  rw [View.set_slice_whole, Rect.mem_set_unit]
  exact Iff.rfl

/-- The ten row blocks tile the output: row `r` is in the block of point `r / 5000`. -/
theorem cover (i : S50000x100.Idx) :
    ∃ t : Fin cfg1.N, (cfg1.win 2).flush t = true ∧ i ∈ ((cfg1.win 2).blk t).view.set := by
  have hi0 : (i 0).val < 50000 := (i 0).isLt
  have hi1 : (i 1).val < 100 := (i 1).isLt
  have hN : cfg1.N = 10 := N_1
  let t : Fin cfg1.N := ⟨(i 0).val / 5000, by omega⟩
  obtain ⟨-, -, -, -, e20, e21⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 100 ≤ (i 1).val ∧ (i 1).val < win1_2.index t (1 : Fin 2) * 100 + 100; omega

/-- THE OUTPUT ARRAY after the stage: the bias row added to, and zero clipped from below, the input array as the stage
    found them. -/
theorem final (c : Dev nD) : (dat1 V c).arrAt 2 cfg1.N = biasRelu (V c main_v43) (V c main_v44) :=
  (dat1 V c).arrAt_eq_of_cover 2 (biasRelu (V c main_v43) (V c main_v44)) (fun t _ => flushed_eq V c t) cover

end Cert.KernelIdeal.Clip1

end
-- ==== Proof.Region2.lean ====
/-
  The second dense product, `h1 · W2`, as the tiled stage leaves it in its result array.

  The stage runs over ten blocks of 5000 consecutive rows of the first layer's output `h1 : [50000, 100]`; at block `t`
  it multiplies rows `5000 t … 5000 t + 4999` of `h1` by the whole weight matrix `W2 : [100, 200]` (the same-shape cast
  and the casts to the short float format are the identity over the extended reals, and the product starts from the
  zero accumulator) and writes the `[5000, 200]` result back as rows `5000 t …` of the output. Entry `(p, q)` of that
  block is `∑ k, h1 (5000 t + p, k) * W2 (k, q)`, entry `(5000 t + p, q)` of the whole product `dense h1 W2`; the ten
  blocks tile the output, so the output array ends holding `dense h1 W2`.
  Stated at any contents `V` of the buffers at the stage's entry.
-/
import proofs.«180696_j83958020702803_1_alg».proof.Proof.Gen.KernelIdeal.Frame
import proofs.«180696_j83958020702803_1_alg».proof.Proof.LibPlainMatmul
import proofs.«180696_j83958020702803_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores is its payload: one store through the whole buffer, of loads through whole buffers. -/
theorem out_eq (x0 : Vec Ideal S5000x100 .f32) (x1 : Vec Ideal S100x200 .f32) :
    out2_2 (F := Ideal) x0 x1 = k2_pay1 x0 x1 := by
  unfold out2_2
  rw [View.canon_unit_zero hz]
  simp only [View.ld_unit_zero (S := S5000x100) hz, View.ld_unit_zero (S := S100x200) hz]

/-- The payload at row `p`, column `q` of the block: the sum over `k` of the row block's `(p, k)` times the weight's `(k, q)`. -/
theorem payload_apply (x0 : Vec Ideal S5000x100 .f32) (x1 : Vec Ideal S100x200 .f32) (p : Fin 5000) (q : Fin 200) :
    k2_pay1 (F := Ideal) x0 x1 (ix2 p q) = ∑ k : Fin 100, x0 (ix2 p k) * x1 (ix2 k q) := by
  unfold k2_pay1
  simp only [shapeCast_self]
  exact Cert.Lib.PlainMatmul.matmul_zero_apply (M := 5000) (K := 100) (N := 200) none _ _ p q

/-- The printed index maps over the grid: the row blocks of the input and of the output move with the point, the
    weight's one block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of the stage against the whole product: if `x0` holds rows `5000 T …` of `X` and `x1` is `W`, the
    payload's entry `y` is the whole product's entry at row `5000 T + y 0`, column `y 1`. -/
theorem block_apply (X : FVec Ideal S50000x100 .f32) (W : FVec Ideal S100x200 .f32)
    (x0 : Vec Ideal S5000x100 .f32) (x1 : Vec Ideal S100x200 .f32) (T : Nat)
    (hx0 : ∀ (y : S5000x100.Idx) (k : S50000x100.Idx), (k 0).val = T * 5000 + (y 0).val → (k 1).val = (y 1).val → x0 y = X k)
    (hx1 : ∀ y : S100x200.Idx, x1 y = W y)
    (y : S5000x200.Idx) (i : S50000x200.Idx) (hi0 : (i 0).val = T * 5000 + (y 0).val) (hi1 : (i 1).val = (y 1).val) :
    k2_pay1 (F := Ideal) x0 x1 y = dense X W i := by
  obtain ⟨p, q, rfl⟩ : ∃ (p : Fin 5000) (q : Fin 200), y = ix2 p q := ⟨y 0, y 1, eq_ix2 y⟩
  rw [payload_apply]
  unfold dense
  refine Finset.sum_congr rfl fun k _ => ?_
  rw [hx1, hx0 (ix2 p k) (ix2 (i 0) k) hi0 rfl]
  congr 2
  exact congrArg (ix2 k) (Fin.ext hi1.symm)

/-- WHAT POINT `t` WRITES BACK is block `t` of the whole product of the arrays as the stage finds them: the input's row
    block sits at rows `5000 t …` of its array, the weight's one block is its whole array, and the output's block goes
    to rows `5000 t …`. -/
theorem flushed_eq (c : Dev nD) (t : Fin cfg2.N) :
    (dat2 V c).flushed 2 t = ((cfg2.win 2).blk t).view.read (Elt Ideal) (dense (V c main_v45) (V c main_arg4)) := by
  show (cfg2.win 2).cut (grid2.coords t) ((dat2 V c).after 2 t) = _
  rw [after2_2, out_eq]
  obtain ⟨e00, e01, e10, e11, e20, e21⟩ := idx_facts t
  funext j
  show k2_pay1 (F := Ideal) (iblk2 V c 0 t) (iblk2 V c 1 t) j
    = dense (V c main_v45) (V c main_arg4) (((cfg2.win 2).blk t).view.emb j)
  refine block_apply (V c main_v45) (V c main_arg4) (iblk2 V c 0 t) (iblk2 V c 1 t) t.val (fun y k h0 h1 => ?_) (fun y => ?_) j
    (((cfg2.win 2).blk t).view.emb j) ?_ ?_
  · show V c main_v45 (((cfg2.win 0).blk t).view.emb y) = V c main_v45 k
    refine congrArg (V c main_v45) (funext fun a => Fin.ext ?_)
    match a with
    | ⟨0, _⟩ => show win2_0.index t (0 : Fin 2) * 5000 + 1 * (y 0).val = (k 0).val; omega
    | ⟨1, _⟩ => show win2_0.index t (1 : Fin 2) * 100 + 1 * (y 1).val = (k 1).val; omega
  · show V c main_arg4 (((cfg2.win 1).blk t).view.emb y) = V c main_arg4 y
    refine congrArg (V c main_arg4) (funext fun a => Fin.ext ?_)
    match a with
    | ⟨0, _⟩ => show win2_1.index t (0 : Fin 2) * 100 + 1 * (y 0).val = (y 0).val; omega
    | ⟨1, _⟩ => show win2_1.index t (1 : Fin 2) * 200 + 1 * (y 1).val = (y 1).val; omega
  · show win2_2.index t (0 : Fin 2) * 5000 + 1 * (j 0).val = t.val * 5000 + (j 0).val; omega
  · show win2_2.index t (1 : Fin 2) * 200 + 1 * (j 1).val = (j 1).val; omega

/-- An index of the output array is in point `t`'s block iff each coordinate is in the block's range on its axis. -/
theorem mem_blk (t : Fin cfg2.N) (i : S50000x200.Idx) :
    i ∈ ((cfg2.win 2).blk t).view.set ↔ ∀ a : Fin 2, win2_2.index t a * S5000x200.size a ≤ (i a).val
      ∧ (i a).val < win2_2.index t a * S5000x200.size a + S5000x200.size a := by
  show i ∈ ((View.whole main_v46).slice (win2_2.rect t)).set ↔ _
  rw [View.set_slice_whole, Rect.mem_set_unit]
  exact Iff.rfl

/-- The ten row blocks tile the output: row `r` is in the block of point `r / 5000`. -/
theorem cover (i : S50000x200.Idx) :
    ∃ t : Fin cfg2.N, (cfg2.win 2).flush t = true ∧ i ∈ ((cfg2.win 2).blk t).view.set := by
  have hi0 : (i 0).val < 50000 := (i 0).isLt
  have hi1 : (i 1).val < 200 := (i 1).isLt
  have hN : cfg2.N = 10 := N_2
  let t : Fin cfg2.N := ⟨(i 0).val / 5000, by omega⟩
  obtain ⟨-, -, -, -, e20, e21⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 200 ≤ (i 1).val ∧ (i 1).val < win2_2.index t (1 : Fin 2) * 200 + 200; omega

/-- THE OUTPUT ARRAY after the stage: the whole product of the input array and the weight array as the stage found them. -/
theorem final (c : Dev nD) : (dat2 V c).arrAt 2 cfg2.N = dense (V c main_v45) (V c main_arg4) :=
  (dat2 V c).arrAt_eq_of_cover 2 (dense (V c main_v45) (V c main_arg4)) (fun t _ => flushed_eq V c t) cover

end Cert.KernelIdeal.Dense2

end
-- ==== Proof.Region3.lean ====
/-
  The second layer's bias and clipping, `max (agg + b2, 0)`, as the tiled stage leaves it in its result array.

  The stage runs over ten blocks of 5000 consecutive rows of the aggregated messages `agg : [50000, 200]`; at block `t` it
  adds the bias, held as the one-row matrix `b : [1, 200]` and spread over the block's rows, to rows
  `5000 t … 5000 t + 4999` of `agg`, clips every entry below at zero, and writes the `[5000, 200]` result back as rows
  `5000 t …` of the output. Entry `(p, q)` of that block is `max (agg (5000 t + p, q) + b (0, q)) 0`, entry
  `(5000 t + p, q)` of `biasRelu agg b`; the ten blocks tile the output, so the output array ends holding `biasRelu agg b`.
  Stated at any contents `V` of the buffers at the stage's entry.
-/
import proofs.«180696_j83958020702803_1_alg».proof.Proof.Gen.KernelIdeal.Frame
import proofs.«180696_j83958020702803_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Clip3

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores is its payload: one store through the whole buffer, of loads through whole buffers. -/
theorem out_eq (x0 : Vec Ideal S5000x200 .f32) (x1 : Vec Ideal S1x200 .f32) :
    out3_2 (F := Ideal) x0 x1 = k3_pay1 x0 x1 := by
  unfold out3_2
  rw [View.canon_unit_zero hz]
  simp only [View.ld_unit_zero (S := S5000x200) hz, View.ld_unit_zero (S := S1x200) hz]

/-- The payload at row `p`, column `q` of the block: the block's entry plus the bias row's entry at `q`, clipped below at
    zero (the same-shape casts are the identity; the one-row bias is spread over the rows). -/
theorem payload_apply (x0 : Vec Ideal S5000x200 .f32) (x1 : Vec Ideal S1x200 .f32) (p : Fin 5000) (q : Fin 200) :
    k3_pay1 (F := Ideal) x0 x1 (ix2 p q) = max (x0 (ix2 p q) + x1 (ix2 (0 : Fin 1) q)) (Ideal.ofBits .f32 0x00000000#32) := by
  unfold k3_pay1
  simp only [shapeCast_self]
  show max (x0 (ix2 p q) + broadcastTo S5000x200 x1 broadcasts_S1x200_S5000x200 (ix2 p q)) _ = _
  rw [broadcastTo_1b_ab_apply]
  rfl

/-- The printed index maps over the grid: the row blocks of the input and of the output move with the point, the bias
    row's one block stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A block of the stage against the whole stage: if `x0` holds rows `5000 T …` of `X` and `x1` is the bias row `B`,
    the payload's entry `y` is the whole stage's entry at row `5000 T + y 0`, column `y 1`. -/
theorem block_apply (X : FVec Ideal S50000x200 .f32) (B : FVec Ideal S1x200 .f32)
    (x0 : Vec Ideal S5000x200 .f32) (x1 : Vec Ideal S1x200 .f32) (T : Nat)
    (hx0 : ∀ (y : S5000x200.Idx) (k : S50000x200.Idx), (k 0).val = T * 5000 + (y 0).val → (k 1).val = (y 1).val → x0 y = X k)
    (hx1 : ∀ y : S1x200.Idx, x1 y = B y)
    (y : S5000x200.Idx) (i : S50000x200.Idx) (hi0 : (i 0).val = T * 5000 + (y 0).val) (hi1 : (i 1).val = (y 1).val) :
    k3_pay1 (F := Ideal) x0 x1 y = biasRelu X B i := by
  obtain ⟨p, q, rfl⟩ : ∃ (p : Fin 5000) (q : Fin 200), y = ix2 p q := ⟨y 0, y 1, eq_ix2 y⟩
  have hq : i 1 = q := Fin.ext hi1
  rw [payload_apply]
  unfold biasRelu
  rw [hx1, hx0 (ix2 p q) i hi0 hi1, hq]

/-- WHAT POINT `t` WRITES BACK is block `t` of the whole stage of the arrays as the stage finds them: the input's row
    block sits at rows `5000 t …` of its array, the bias row's one block is its whole array, and the output's block goes
    to rows `5000 t …`. -/
theorem flushed_eq (c : Dev nD) (t : Fin cfg3.N) :
    (dat3 V c).flushed 2 t = ((cfg3.win 2).blk t).view.read (Elt Ideal) (biasRelu (V c main_v59) (V c main_v60)) := by
  show (cfg3.win 2).cut (grid3.coords t) ((dat3 V c).after 2 t) = _
  rw [after3_2, out_eq]
  obtain ⟨e00, e01, e10, e11, e20, e21⟩ := idx_facts t
  funext j
  show k3_pay1 (F := Ideal) (iblk3 V c 0 t) (iblk3 V c 1 t) j
    = biasRelu (V c main_v59) (V c main_v60) (((cfg3.win 2).blk t).view.emb j)
  refine block_apply (V c main_v59) (V c main_v60) (iblk3 V c 0 t) (iblk3 V c 1 t) t.val (fun y k h0 h1 => ?_) (fun y => ?_) j
    (((cfg3.win 2).blk t).view.emb j) ?_ ?_
  · show V c main_v59 (((cfg3.win 0).blk t).view.emb y) = V c main_v59 k
    refine congrArg (V c main_v59) (funext fun a => Fin.ext ?_)
    match a with
    | ⟨0, _⟩ => show win3_0.index t (0 : Fin 2) * 5000 + 1 * (y 0).val = (k 0).val; omega
    | ⟨1, _⟩ => show win3_0.index t (1 : Fin 2) * 200 + 1 * (y 1).val = (k 1).val; omega
  · show V c main_v60 (((cfg3.win 1).blk t).view.emb y) = V c main_v60 y
    refine congrArg (V c main_v60) (funext fun a => Fin.ext ?_)
    match a with
    | ⟨0, _⟩ => show win3_1.index t (0 : Fin 2) * 1 + 1 * (y 0).val = (y 0).val; omega
    | ⟨1, _⟩ => show win3_1.index t (1 : Fin 2) * 200 + 1 * (y 1).val = (y 1).val; omega
  · show win3_2.index t (0 : Fin 2) * 5000 + 1 * (j 0).val = t.val * 5000 + (j 0).val; omega
  · show win3_2.index t (1 : Fin 2) * 200 + 1 * (j 1).val = (j 1).val; omega

/-- An index of the output array is in point `t`'s block iff each coordinate is in the block's range on its axis. -/
theorem mem_blk (t : Fin cfg3.N) (i : S50000x200.Idx) :
    i ∈ ((cfg3.win 2).blk t).view.set ↔ ∀ a : Fin 2, win3_2.index t a * S5000x200.size a ≤ (i a).val
      ∧ (i a).val < win3_2.index t a * S5000x200.size a + S5000x200.size a := by
  show i ∈ ((View.whole main_v61).slice (win3_2.rect t)).set ↔ _
  rw [View.set_slice_whole, Rect.mem_set_unit]
  exact Iff.rfl

/-- The ten row blocks tile the output: row `r` is in the block of point `r / 5000`. -/
theorem cover (i : S50000x200.Idx) :
    ∃ t : Fin cfg3.N, (cfg3.win 2).flush t = true ∧ i ∈ ((cfg3.win 2).blk t).view.set := by
  have hi0 : (i 0).val < 50000 := (i 0).isLt
  have hi1 : (i 1).val < 200 := (i 1).isLt
  have hN : cfg3.N = 10 := N_3
  let t : Fin cfg3.N := ⟨(i 0).val / 5000, by omega⟩
  obtain ⟨-, -, -, -, e20, e21⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 200 ≤ (i 1).val ∧ (i 1).val < win3_2.index t (1 : Fin 2) * 200 + 200; omega

/-- THE OUTPUT ARRAY after the stage: the bias row added to, and zero clipped from below, the input array as the stage
    found them. -/
theorem final (c : Dev nD) : (dat3 V c).arrAt 2 cfg3.N = biasRelu (V c main_v59) (V c main_v60) :=
  (dat3 V c).arrAt_eq_of_cover 2 (biasRelu (V c main_v59) (V c main_v60)) (fun t _ => flushed_eq V c t) cover

end Cert.KernelIdeal.Clip3

end
-- ==== Proof.Region4.lean ====
/-
  The linear head, `h2 · Wfc + bfc`, as the tiled stage leaves it in its result array.

  The stage runs over ten blocks of 5000 consecutive rows of the second layer's output `h2 : [50000, 200]`; at block `t`
  it multiplies rows `5000 t … 5000 t + 4999` of `h2` by the whole weight matrix `Wfc : [200, 16]` (the same-shape cast and
  the casts to the short float format are the identity over the extended reals, and the product starts from the zero
  accumulator), adds the bias, held as the one-row matrix `b : [1, 16]` and spread over the block's rows, and writes
  the `[5000, 16]` result back as rows `5000 t …` of the output. Entry `(p, q)` of that block is
  `∑ k, h2 (5000 t + p, k) * Wfc (k, q) + b (0, q)`, entry `(5000 t + p, q)` of `denseBias h2 Wfc b`; the ten blocks tile
  the output, so the output array ends holding `denseBias h2 Wfc b`.
  Stated at any contents `V` of the buffers at the stage's entry.
-/
import proofs.«180696_j83958020702803_1_alg».proof.Proof.Gen.KernelIdeal.Frame
import proofs.«180696_j83958020702803_1_alg».proof.Proof.LibPlainMatmul
import proofs.«180696_j83958020702803_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Head4

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores is its payload: one store through the whole buffer, of loads through whole buffers. -/
theorem out_eq (x0 : Vec Ideal S5000x200 .f32) (x1 : Vec Ideal S200x16 .f32) (x2 : Vec Ideal S1x16 .f32) :
    out4_3 (F := Ideal) x0 x1 x2 = k4_pay1 x0 x1 x2 := by
  unfold out4_3
  rw [View.canon_unit_zero hz]
  simp only [View.ld_unit_zero (S := S5000x200) hz, View.ld_unit_zero (S := S200x16) hz, View.ld_unit_zero (S := S1x16) hz]

/-- The payload at row `p`, column `q` of the block: the sum over `k` of the row block's `(p, k)` times the weight's
    `(k, q)`, plus the bias row's entry at `q`. -/
theorem payload_apply (x0 : Vec Ideal S5000x200 .f32) (x1 : Vec Ideal S200x16 .f32) (x2 : Vec Ideal S1x16 .f32)
    (p : Fin 5000) (q : Fin 16) :
    k4_pay1 (F := Ideal) x0 x1 x2 (ix2 p q) = (∑ k : Fin 200, x0 (ix2 p k) * x1 (ix2 k q)) + x2 (ix2 (0 : Fin 1) q) := by
  unfold k4_pay1
  simp only [shapeCast_self]
  show FloatOps.matmul (DotDims.plain 5000 200 16) none (truncf .bf16 x0 bitsLt_bf16_f32) (truncf .bf16 x1 bitsLt_bf16_f32)
      (constant (F := Ideal) ⟨2, ![5000, 16]⟩ .f32 0x00000000#32) (ix2 p q)
    + broadcastTo S5000x16 x2 broadcasts_S1x16_S5000x16 (ix2 p q) = _
  rw [Cert.Lib.PlainMatmul.matmul_zero_apply, broadcastTo_1b_ab_apply]
  rfl

/-- The printed index maps over the grid: the row blocks of the input and of the output move with the point, the
    weight's and the bias row's one block each stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- A block of the stage against the whole stage: if `x0` holds rows `5000 T …` of `X`, `x1` is `W` and `x2` the bias
    row `B`, the payload's entry `y` is the whole stage's entry at row `5000 T + y 0`, column `y 1`. -/
theorem block_apply (X : FVec Ideal S50000x200 .f32) (W : FVec Ideal S200x16 .f32) (B : FVec Ideal S1x16 .f32)
    (x0 : Vec Ideal S5000x200 .f32) (x1 : Vec Ideal S200x16 .f32) (x2 : Vec Ideal S1x16 .f32) (T : Nat)
    (hx0 : ∀ (y : S5000x200.Idx) (k : S50000x200.Idx), (k 0).val = T * 5000 + (y 0).val → (k 1).val = (y 1).val → x0 y = X k)
    (hx1 : ∀ y : S200x16.Idx, x1 y = W y) (hx2 : ∀ y : S1x16.Idx, x2 y = B y)
    (y : S5000x16.Idx) (i : S50000x16.Idx) (hi0 : (i 0).val = T * 5000 + (y 0).val) (hi1 : (i 1).val = (y 1).val) :
    k4_pay1 (F := Ideal) x0 x1 x2 y = denseBias X W B i := by
  obtain ⟨p, q, rfl⟩ : ∃ (p : Fin 5000) (q : Fin 16), y = ix2 p q := ⟨y 0, y 1, eq_ix2 y⟩
  have hq : i 1 = q := Fin.ext hi1
  rw [payload_apply]
  unfold denseBias dense
  rw [hx2, hq]
  refine congrArg (· + B (ix2 (0 : Fin 1) q)) (Finset.sum_congr rfl fun k _ => ?_)
  rw [hx1, hx0 (ix2 p k) (ix2 (i 0) k) hi0 rfl]

/-- WHAT POINT `t` WRITES BACK is block `t` of the whole stage of the arrays as the stage finds them: the input's row
    block sits at rows `5000 t …` of its array, the weight's and the bias row's one block each is its whole array, and
    the output's block goes to rows `5000 t …`. -/
theorem flushed_eq (c : Dev nD) (t : Fin cfg4.N) :
    (dat4 V c).flushed 3 t
      = ((cfg4.win 3).blk t).view.read (Elt Ideal) (denseBias (V c main_v61) (V c main_arg6) (V c main_v62)) := by
  show (cfg4.win 3).cut (grid4.coords t) ((dat4 V c).after 3 t) = _
  rw [after4_3, out_eq]
  obtain ⟨e00, e01, e10, e11, e20, e21, e30, e31⟩ := idx_facts t
  funext j
  show k4_pay1 (F := Ideal) (iblk4 V c 0 t) (iblk4 V c 1 t) (iblk4 V c 2 t) j
    = denseBias (V c main_v61) (V c main_arg6) (V c main_v62) (((cfg4.win 3).blk t).view.emb j)
  refine block_apply (V c main_v61) (V c main_arg6) (V c main_v62) (iblk4 V c 0 t) (iblk4 V c 1 t) (iblk4 V c 2 t) t.val
    (fun y k h0 h1 => ?_) (fun y => ?_) (fun y => ?_) j (((cfg4.win 3).blk t).view.emb j) ?_ ?_
  · show V c main_v61 (((cfg4.win 0).blk t).view.emb y) = V c main_v61 k
    refine congrArg (V c main_v61) (funext fun a => Fin.ext ?_)
    match a with
    | ⟨0, _⟩ => show win4_0.index t (0 : Fin 2) * 5000 + 1 * (y 0).val = (k 0).val; omega
    | ⟨1, _⟩ => show win4_0.index t (1 : Fin 2) * 200 + 1 * (y 1).val = (k 1).val; omega
  · show V c main_arg6 (((cfg4.win 1).blk t).view.emb y) = V c main_arg6 y
    refine congrArg (V c main_arg6) (funext fun a => Fin.ext ?_)
    match a with
    | ⟨0, _⟩ => show win4_1.index t (0 : Fin 2) * 200 + 1 * (y 0).val = (y 0).val; omega
    | ⟨1, _⟩ => show win4_1.index t (1 : Fin 2) * 16 + 1 * (y 1).val = (y 1).val; omega
  · show V c main_v62 (((cfg4.win 2).blk t).view.emb y) = V c main_v62 y
    refine congrArg (V c main_v62) (funext fun a => Fin.ext ?_)
    match a with
    | ⟨0, _⟩ => show win4_2.index t (0 : Fin 2) * 1 + 1 * (y 0).val = (y 0).val; omega
    | ⟨1, _⟩ => show win4_2.index t (1 : Fin 2) * 16 + 1 * (y 1).val = (y 1).val; omega
  · show win4_3.index t (0 : Fin 2) * 5000 + 1 * (j 0).val = t.val * 5000 + (j 0).val; omega
  · show win4_3.index t (1 : Fin 2) * 16 + 1 * (j 1).val = (j 1).val; omega

/-- An index of the output array is in point `t`'s block iff each coordinate is in the block's range on its axis. -/
theorem mem_blk (t : Fin cfg4.N) (i : S50000x16.Idx) :
    i ∈ ((cfg4.win 3).blk t).view.set ↔ ∀ a : Fin 2, win4_3.index t a * S5000x16.size a ≤ (i a).val
      ∧ (i a).val < win4_3.index t a * S5000x16.size a + S5000x16.size a := by
  show i ∈ ((View.whole main_v63).slice (win4_3.rect t)).set ↔ _
  rw [View.set_slice_whole, Rect.mem_set_unit]
  exact Iff.rfl

/-- The ten row blocks tile the output: row `r` is in the block of point `r / 5000`. -/
theorem cover (i : S50000x16.Idx) :
    ∃ t : Fin cfg4.N, (cfg4.win 3).flush t = true ∧ i ∈ ((cfg4.win 3).blk t).view.set := by
  have hi0 : (i 0).val < 50000 := (i 0).isLt
  have hi1 : (i 1).val < 16 := (i 1).isLt
  have hN : cfg4.N = 10 := N_4
  let t : Fin cfg4.N := ⟨(i 0).val / 5000, by omega⟩
  obtain ⟨-, -, -, -, -, -, e30, e31⟩ := idx_facts t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 16 ≤ (i 1).val ∧ (i 1).val < win4_3.index t (1 : Fin 2) * 16 + 16; omega

/-- THE OUTPUT ARRAY after the stage: the product of the input array and the weight array plus the bias row, as the stage
    found them. -/
theorem final (c : Dev nD) : (dat4 V c).arrAt 3 cfg4.N = denseBias (V c main_v61) (V c main_arg6) (V c main_v62) :=
  (dat4 V c).arrAt_eq_of_cover 3 (denseBias (V c main_v61) (V c main_arg6) (V c main_v62)) (fun t _ => flushed_eq V c t) cover

end Cert.KernelIdeal.Head4

end
-- ==== Proof.HostStretches.lean ====
/-
  The stretches of host operations between the dense stages, read against the reference's stages.

  Between its tiled dense stages the program runs the graph part on the host, with the very operations the reference
  runs: from the edge list, the self-looped source and target lists and the edge weights
  `deg^(-1/2) [source] * deg^(-1/2) [target]` (once, before the first stage); then per layer the gather of the
  product's rows at the sources, their scaling by the weights, and the scatter-add into the targets' rows; and the
  reshapes of the bias vectors to one-row matrices. Each stretch is read here at the buffers it computes, from ANY
  contents of the buffers before it, as the reference's corresponding stage of whatever those contents are; the
  operations are never opened, only matched one for one. A buffer a stretch does not write keeps its contents.
  Stated for any float family.
-/
import proofs.«180696_j83958020702803_1_alg».proof.Proof.Gen.KernelIdeal.Launch
import proofs.«180696_j83958020702803_1_alg».proof.Proof.RefRead
import Idealize.ShloMosaic.Lib.StableHlo.Run

set_option maxRecDepth 16384

noncomputable section

namespace Cert.KernelIdeal.Host

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]
variable (Wv : Valuation τ sig (Elt F))

/-! ## Before the first stage: the graph quantities -/

/-- The three stretches before the first dense stage, in order. -/
abbrev graphStretch : Valuation τ sig (Elt F) :=
  after hostOps0_2 (after hostOps0_1 (after hostOps0 Wv))

set_option maxHeartbeats 4000000 in
/-- The self-looped source list is the reference's. -/
theorem src_eq : graphStretch Wv (Proc.devRef .tc main_v5) = val_main_v6 (F := F) (Wv (Proc.devRef .tc main_arg1)) := by
  show after hostOps0_2 (after hostOps0_1 (after hostOps0 Wv)) (Proc.devRef .tc main_v5) = _
  after_results_simp
  rfl

set_option maxHeartbeats 4000000 in
/-- The self-looped target list is the reference's. -/
theorem tgt_eq : graphStretch Wv (Proc.devRef .tc main_v6) = val_main_v7 (F := F) (Wv (Proc.devRef .tc main_arg1)) := by
  show after hostOps0_2 (after hostOps0_1 (after hostOps0 Wv)) (Proc.devRef .tc main_v6) = _
  after_results_simp
  rfl

set_option maxHeartbeats 8000000 in
/-- The edge weights are the reference's. -/
theorem weight_eq : graphStretch Wv (Proc.devRef .tc main_v29) = val_main_v30 (F := F) (Wv (Proc.devRef .tc main_arg1)) := by
  show after hostOps0_2 (after hostOps0_1 (after hostOps0 Wv)) (Proc.devRef .tc main_v29) = _
  after_results_simp
  rfl

/-- The three stretches write none of these: the arguments the later stages read. -/
theorem keepG (b : Ref sig .tc) (hb : b ∈ [main_arg0, main_arg2, main_arg3, main_arg4, main_arg5, main_arg6, main_arg7]) :
    graphStretch Wv (Proc.devRef .tc b) = Wv (Proc.devRef .tc b) := by
  show after hostOps0_2 (after hostOps0_1 (after hostOps0 Wv)) (Proc.devRef .tc b) = _
  simp only [List.mem_cons, List.not_mem_nil, or_false] at hb
  rcases hb with rfl | rfl | rfl | rfl | rfl | rfl | rfl <;> after_results_simp

/-! ## Between the first product and the first clipping -/

variable (x0 : (⟨S50000x128, .f32⟩ : BufTy).Contents (Elt F)) (x1 : (⟨S2x800000, .i32⟩ : BufTy).Contents (Elt F))
  (x2 : (⟨S128x100, .f32⟩ : BufTy).Contents (Elt F)) (x3 : (⟨S100, .f32⟩ : BufTy).Contents (Elt F))
  (x4 : (⟨S100x200, .f32⟩ : BufTy).Contents (Elt F))

set_option maxHeartbeats 4000000 in
/-- The first layer's aggregation: the product's rows gathered at the sources, scaled by the edge weights and
    scatter-added into the targets' rows, is the reference's, whatever product, lists and weights the buffers hold. -/
theorem agg1_eq
    (h30 : Wv (Proc.devRef .tc main_v30) = val_main_v4 (F := F) x0 x2)
    (h5 : Wv (Proc.devRef .tc main_v5) = val_main_v6 (F := F) x1)
    (h6 : Wv (Proc.devRef .tc main_v6) = val_main_v7 (F := F) x1)
    (h29 : Wv (Proc.devRef .tc main_v29) = val_main_v30 (F := F) x1) :
    after hostOps1 Wv (Proc.devRef .tc main_v43) = val_main_v43 (F := F) x0 x1 x2 := by
  after_results_simp
  rw [h30, h5, h6, h29]
  rfl

/-- The first bias vector reshaped to one row. -/
theorem row1_eq : after hostOps1 Wv (Proc.devRef .tc main_v44)
    = shapeCast S1x100 (Wv (Proc.devRef .tc main_arg3)) shapeCasts_S100_S1x100 := by
  after_results_simp <;> rfl

/-- The stretch writes none of these. -/
theorem keep1 (b : Ref sig .tc) (hb : b ∈ [main_v5, main_v6, main_v29, main_arg4, main_arg5, main_arg6, main_arg7]) :
    after hostOps1 Wv (Proc.devRef .tc b) = Wv (Proc.devRef .tc b) := by
  simp only [List.mem_cons, List.not_mem_nil, or_false] at hb
  rcases hb with rfl | rfl | rfl | rfl | rfl | rfl | rfl <;> after_results_simp

/-! ## Between the second product and the second clipping -/

set_option maxHeartbeats 8000000 in
/-- The second layer's aggregation, with the lists and weights computed before the first stage, is the reference's,
    which computes them afresh by the same operations. -/
theorem agg2_eq
    (h46 : Wv (Proc.devRef .tc main_v46) = val_main_v48 (F := F) x0 x1 x2 x3 x4)
    (h5 : Wv (Proc.devRef .tc main_v5) = val_main_v6 (F := F) x1)
    (h6 : Wv (Proc.devRef .tc main_v6) = val_main_v7 (F := F) x1)
    (h29 : Wv (Proc.devRef .tc main_v29) = val_main_v30 (F := F) x1) :
    after hostOps3 Wv (Proc.devRef .tc main_v59) = val_main_v87 (F := F) x0 x1 x2 x3 x4 := by
  after_results_simp
  rw [h46, h5, h6, h29]
  rfl

/-- The second bias vector reshaped to one row. -/
theorem row3_eq : after hostOps3 Wv (Proc.devRef .tc main_v60)
    = shapeCast S1x200 (Wv (Proc.devRef .tc main_arg5)) shapeCasts_S200_S1x200 := by
  after_results_simp <;> rfl

/-- The stretch writes none of these. -/
theorem keep3 (b : Ref sig .tc) (hb : b ∈ [main_arg6, main_arg7]) :
    after hostOps3 Wv (Proc.devRef .tc b) = Wv (Proc.devRef .tc b) := by
  simp only [List.mem_cons, List.not_mem_nil, or_false] at hb
  rcases hb with rfl | rfl <;> after_results_simp

/-! ## Before the head -/

/-- The head's bias vector reshaped to one row. -/
theorem row4_eq : after hostOps4 Wv (Proc.devRef .tc main_v62)
    = shapeCast S1x16 (Wv (Proc.devRef .tc main_arg7)) shapeCasts_S16_S1x16 := by
  after_results_simp <;> rfl

/-- The stretch writes none of these. -/
theorem keep4 (b : Ref sig .tc) (hb : b ∈ [main_v61, main_arg6]) :
    after hostOps4 Wv (Proc.devRef .tc b) = Wv (Proc.devRef .tc b) := by
  simp only [List.mem_cons, List.not_mem_nil, or_false] at hb
  rcases hb with rfl | rfl <;> after_results_simp

end Cert.KernelIdeal.Host

end
-- ==== Proof.RefStages.lean ====
/-
  The reference's dense stages are the specification's, and its second layer's graph quantities are the first's.

  The reference computes, of the arguments, in order: the product `x · W1`; the aggregation of its rows over the graph;
  the bias `b1` added and zero clipped from below; the product with `W2`; the aggregation again; the bias `b2` and the
  clipping; the product with `Wfc` plus the bias `bfc`. Entry by entry each dense stage is the specification's function
  of the stage before it (`dense`, `biasRelu`, `denseBias` of Spec.lean): a host product is the sum over the contracted
  axis, a bias broadcast along the rows reads the bias at the column, and the clipping is the maximum with the zero word.
  The bias reaches a tiled stage as a one-row matrix, a reshape of the bias vector; the reference broadcasts the vector
  to one row: the same one-row matrix.
  The reference builds the self-looped source and target lists and the edge weights afresh for its second layer from
  the same edge list by the same operations: they are the first layer's, term for term.
-/
import proofs.«180696_j83958020702803_1_alg».proof.Proof.RefRead
import proofs.«180696_j83958020702803_1_alg».proof.Proof.Spec
import Idealize.ShloMosaic.Lib.ValueLayout

noncomputable section

namespace Cert.ReferenceIdeal.Stages

open Cert.ReferenceIdeal Cert.ReferenceIdeal.ReadP Cert.Gcn
open Idealize.ShloMosaic Idealize.ShloMosaic.ValueIdx

/-! ## The graph quantities of the second layer are the first layer's -/

section Graph
variable {F : FTy → Type} [FloatOps F] (x1 : (⟨S2x800000, .i32⟩ : BufTy).Contents (Elt F))

/-- The self-looped source list. -/
theorem src2_eq : val_main_v50 (F := F) x1 = val_main_v6 (F := F) x1 := rfl
/-- The self-looped target list. -/
theorem tgt2_eq : val_main_v51 (F := F) x1 = val_main_v7 (F := F) x1 := rfl
/-- The edge weights `deg^(-1/2) [source] * deg^(-1/2) [target]`. -/
theorem weight2_eq : val_main_v74 (F := F) x1 = val_main_v30 (F := F) x1 := rfl

end Graph

/-! ## The dense stages, entry by entry over the extended reals -/

variable (x0 : (⟨S50000x128, .f32⟩ : BufTy).Contents (Elt Ideal)) (x1 : (⟨S2x800000, .i32⟩ : BufTy).Contents (Elt Ideal))
  (x2 : (⟨S128x100, .f32⟩ : BufTy).Contents (Elt Ideal)) (x3 : (⟨S100, .f32⟩ : BufTy).Contents (Elt Ideal))
  (x4 : (⟨S100x200, .f32⟩ : BufTy).Contents (Elt Ideal)) (x5 : (⟨S200, .f32⟩ : BufTy).Contents (Elt Ideal))
  (x6 : (⟨S200x16, .f32⟩ : BufTy).Contents (Elt Ideal)) (x7 : (⟨S16, .f32⟩ : BufTy).Contents (Elt Ideal))

/-- The first product. -/
theorem dense_v4 : dense x0 x2 = val_main_v4 (F := Ideal) x0 x2 := by
  funext i
  rw [val_main_v4_apply]
  unfold dense
  refine Finset.sum_congr rfl fun k _ => ?_
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  rw [el, er]
  rfl

/-- The second product, of the first layer's output. -/
theorem dense_v48 : dense (val_main_v47 (F := Ideal) x0 x1 x2 x3) x4 = val_main_v48 (F := Ideal) x0 x1 x2 x3 x4 := by
  funext i
  rw [val_main_v48_apply]
  unfold dense
  refine Finset.sum_congr rfl fun k _ => ?_
  have el : lidx_main_v48 i k = ix2 (i 0) k := funext fun a => Fin.ext (by match a with | ⟨0, _⟩ => rfl | ⟨1, _⟩ => rfl)
  have er : ridx_main_v48 i k = ix2 k (i 1) := funext fun a => Fin.ext (by match a with | ⟨0, _⟩ => rfl | ⟨1, _⟩ => rfl)
  rw [el, er]
  rfl

/-- The bias vector reshaped to one row is the bias vector broadcast to one row. -/
theorem row_v44 (h : S100.ShapeCasts S1x100) : shapeCast S1x100 x3 h = val_main_v44 (F := Ideal) x3 := by
  funext y
  obtain ⟨u, q, rfl⟩ : ∃ (u : Fin 1) (q : Fin 100), y = ix2 u q := ⟨y 0, y 1, eq_ix2 y⟩
  rw [val_main_v44_apply]
  exact (shapeCast_a_1a_apply x3 h u q).trans (congrArg x3 (funext fun a => Fin.ext (by match a with | ⟨0, _⟩ => rfl)))

theorem row_v88 (h : S200.ShapeCasts S1x200) : shapeCast S1x200 x5 h = val_main_v88 (F := Ideal) x5 := by
  funext y
  obtain ⟨u, q, rfl⟩ : ∃ (u : Fin 1) (q : Fin 200), y = ix2 u q := ⟨y 0, y 1, eq_ix2 y⟩
  rw [val_main_v88_apply]
  exact (shapeCast_a_1a_apply x5 h u q).trans (congrArg x5 (funext fun a => Fin.ext (by match a with | ⟨0, _⟩ => rfl)))

theorem row_v93 (h : S16.ShapeCasts S1x16) : shapeCast S1x16 x7 h = val_main_v93 (F := Ideal) x7 := by
  funext y
  obtain ⟨u, q, rfl⟩ : ∃ (u : Fin 1) (q : Fin 16), y = ix2 u q := ⟨y 0, y 1, eq_ix2 y⟩
  rw [val_main_v93_apply]
  exact (shapeCast_a_1a_apply x7 h u q).trans (congrArg x7 (funext fun a => Fin.ext (by match a with | ⟨0, _⟩ => rfl)))

/-- The first layer's bias and clipping. -/
theorem clip_v47 : biasRelu (val_main_v43 (F := Ideal) x0 x1 x2) (val_main_v44 (F := Ideal) x3)
    = val_main_v47 (F := Ideal) x0 x1 x2 x3 := by
  funext i
  rw [val_main_v47_apply, val_main_v46_apply, val_main_v45_apply, val_main_call1_v0_apply, val_main_call1_cst_apply]
  have e : idx_main_v45 i = ix2 (0 : Fin 1) (i 1) := funext fun a => Fin.ext (by match a with | ⟨0, _⟩ => rfl | ⟨1, _⟩ => rfl)
  rw [e]
  rfl

/-- The second layer's bias and clipping. -/
theorem clip_v91 : biasRelu (val_main_v87 (F := Ideal) x0 x1 x2 x3 x4) (val_main_v88 (F := Ideal) x5)
    = val_main_v91 (F := Ideal) x0 x1 x2 x3 x4 x5 := by
  funext i
  rw [val_main_v91_apply, val_main_v90_apply, val_main_v89_apply, val_main_call3_v0_apply, val_main_call3_cst_apply]
  have e : idx_main_v89 i = ix2 (0 : Fin 1) (i 1) := funext fun a => Fin.ext (by match a with | ⟨0, _⟩ => rfl | ⟨1, _⟩ => rfl)
  rw [e]
  rfl

/-- The linear head: the product of the second layer's output plus the bias. -/
theorem head_v95 : denseBias (val_main_v91 (F := Ideal) x0 x1 x2 x3 x4 x5) x6 (val_main_v93 (F := Ideal) x7)
    = val_main_v95 (F := Ideal) x0 x1 x2 x3 x4 x5 x6 x7 := by
  funext i
  rw [val_main_v95_apply, val_main_v94_apply, val_main_v92_apply]
  unfold denseBias dense
  have e : idx_main_v94 i = ix2 (0 : Fin 1) (i 1) := funext fun a => Fin.ext (by match a with | ⟨0, _⟩ => rfl | ⟨1, _⟩ => rfl)
  rw [e]
  refine congrArg (· + val_main_v93 (F := Ideal) x7 (ix2 (0 : Fin 1) (i 1))) (Finset.sum_congr rfl fun k _ => ?_)
  have el : lidx_main_v92 i k = ix2 (i 0) k := funext fun a => Fin.ext (by match a with | ⟨0, _⟩ => rfl | ⟨1, _⟩ => rfl)
  have er : ridx_main_v92 i k = ix2 k (i 1) := funext fun a => Fin.ext (by match a with | ⟨0, _⟩ => rfl | ⟨1, _⟩ => rfl)
  rw [el, er]
  rfl

end Cert.ReferenceIdeal.Stages

end
-- ==== Proof.Through.lean ====
/-
  The program's buffers from the launch to the result: at every boundary between its stretches of host operations and
  its tiled dense stages, each buffer a later step reads holds the reference's corresponding stage of the arguments.

  In order: the three host stretches before the first stage leave the self-looped source and target lists and the edge
  weights (HostStretches.lean); the first tiled product leaves `x · W1` (Region0.lean, the reference's product by
  RefStages.lean); the host aggregates its rows over the graph and reshapes the bias; the first clipping stage leaves
  `max (agg + b1, 0)`; the second product `· W2`; the host aggregates again, with the lists and weights it already has;
  the second clipping; the reshape of the head's bias; the head leaves `h2 · Wfc + bfc`. A tiled stage changes only its
  own output array and a host stretch only the buffers it computes, so the lists, the weights and the arguments are
  carried unchanged to where they are read. The result buffer therefore ends at the reference's result term of the
  arguments, and the run of the program is re-posted with the result at that term.
-/
import proofs.«180696_j83958020702803_1_alg».proof.Proof.KernelRun
import proofs.«180696_j83958020702803_1_alg».proof.Proof.Region0
import proofs.«180696_j83958020702803_1_alg».proof.Proof.Region1
import proofs.«180696_j83958020702803_1_alg».proof.Proof.Region2
import proofs.«180696_j83958020702803_1_alg».proof.Proof.Region3
import proofs.«180696_j83958020702803_1_alg».proof.Proof.Region4
import proofs.«180696_j83958020702803_1_alg».proof.Proof.HostStretches
import proofs.«180696_j83958020702803_1_alg».proof.Proof.RefStages

set_option maxRecDepth 16384

noncomputable section

namespace Cert.KernelIdeal.Through

open Cert.KernelIdeal Cert.KernelIdeal.Gen Cert.ReferenceIdeal.ReadP Cert.ReferenceIdeal.Stages Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array as launched, on core `c`. -/
abbrev arg (b : Ref sig .tc) : Buf (Elt Ideal) ((c : Thread nD τ).loc b) := m ((c : Thread nD τ).loc b)

/-! ## At the first stage's entry -/

theorem at3_src : W3 m ρ c (Proc.devRef .tc main_v5) = val_main_v6 (F := Ideal) (arg m c main_arg1) := Host.src_eq (W0 m ρ c)
theorem at3_tgt : W3 m ρ c (Proc.devRef .tc main_v6) = val_main_v7 (F := Ideal) (arg m c main_arg1) := Host.tgt_eq (W0 m ρ c)
theorem at3_weight : W3 m ρ c (Proc.devRef .tc main_v29) = val_main_v30 (F := Ideal) (arg m c main_arg1) := Host.weight_eq (W0 m ρ c)
theorem at3_arg (b : Ref sig .tc) (hb : b ∈ [main_arg0, main_arg2, main_arg3, main_arg4, main_arg5, main_arg6, main_arg7]) :
    W3 m ρ c (Proc.devRef .tc b) = arg m c b := Host.keepG (W0 m ρ c) b hb

/-! ## After the first product -/

theorem at4_prod : W4 m ρ c (Proc.devRef .tc main_v30) = val_main_v4 (F := Ideal) (arg m c main_arg0) (arg m c main_arg2) := by
  refine (W4_arr m ρ c 2).trans ((Dense0.final (V3 m ρ) c).trans ?_)
  show dense (W3 m ρ c (Proc.devRef .tc main_arg0)) (W3 m ρ c (Proc.devRef .tc main_arg2)) = _
  rw [at3_arg m ρ c main_arg0 (by decide), at3_arg m ρ c main_arg2 (by decide)]
  exact dense_v4 _ _
theorem at4_src : W4 m ρ c (Proc.devRef .tc main_v5) = val_main_v6 (F := Ideal) (arg m c main_arg1) :=
  (W4_of_ne m ρ c main_v5 (by decide)).trans (at3_src m ρ c)
theorem at4_tgt : W4 m ρ c (Proc.devRef .tc main_v6) = val_main_v7 (F := Ideal) (arg m c main_arg1) :=
  (W4_of_ne m ρ c main_v6 (by decide)).trans (at3_tgt m ρ c)
theorem at4_weight : W4 m ρ c (Proc.devRef .tc main_v29) = val_main_v30 (F := Ideal) (arg m c main_arg1) :=
  (W4_of_ne m ρ c main_v29 (by decide)).trans (at3_weight m ρ c)
theorem at4_arg (b : Ref sig .tc) (hb : b ∈ [main_arg3, main_arg4, main_arg5, main_arg6, main_arg7]) :
    W4 m ρ c (Proc.devRef .tc b) = arg m c b := by
  simp only [List.mem_cons, List.not_mem_nil, or_false] at hb
  rcases hb with rfl | rfl | rfl | rfl | rfl <;> exact (W4_of_ne m ρ c _ (by decide)).trans (at3_arg m ρ c _ (by decide))

/-! ## At the first clipping's entry -/

theorem at5_agg : W5 m ρ c (Proc.devRef .tc main_v43)
    = val_main_v43 (F := Ideal) (arg m c main_arg0) (arg m c main_arg1) (arg m c main_arg2) :=
  Host.agg1_eq (W4 m ρ c) _ _ _ (at4_prod m ρ c) (at4_src m ρ c) (at4_tgt m ρ c) (at4_weight m ρ c)
theorem at5_row : W5 m ρ c (Proc.devRef .tc main_v44) = val_main_v44 (F := Ideal) (arg m c main_arg3) := by
  refine (Host.row1_eq (W4 m ρ c)).trans ?_
  rw [at4_arg m ρ c main_arg3 (by decide)]
  exact row_v44 _ _
theorem at5_src : W5 m ρ c (Proc.devRef .tc main_v5) = val_main_v6 (F := Ideal) (arg m c main_arg1) :=
  (Host.keep1 (W4 m ρ c) main_v5 (by decide)).trans (at4_src m ρ c)
theorem at5_tgt : W5 m ρ c (Proc.devRef .tc main_v6) = val_main_v7 (F := Ideal) (arg m c main_arg1) :=
  (Host.keep1 (W4 m ρ c) main_v6 (by decide)).trans (at4_tgt m ρ c)
theorem at5_weight : W5 m ρ c (Proc.devRef .tc main_v29) = val_main_v30 (F := Ideal) (arg m c main_arg1) :=
  (Host.keep1 (W4 m ρ c) main_v29 (by decide)).trans (at4_weight m ρ c)
theorem at5_arg (b : Ref sig .tc) (hb : b ∈ [main_arg4, main_arg5, main_arg6, main_arg7]) :
    W5 m ρ c (Proc.devRef .tc b) = arg m c b := by
  simp only [List.mem_cons, List.not_mem_nil, or_false] at hb
  rcases hb with rfl | rfl | rfl | rfl <;> exact (Host.keep1 (W4 m ρ c) _ (by decide)).trans (at4_arg m ρ c _ (by decide))

/-! ## After the first clipping -/

theorem at6_clip : W6 m ρ c (Proc.devRef .tc main_v45)
    = val_main_v47 (F := Ideal) (arg m c main_arg0) (arg m c main_arg1) (arg m c main_arg2) (arg m c main_arg3) := by
  refine (W6_arr m ρ c 2).trans ((Clip1.final (V5 m ρ) c).trans ?_)
  show biasRelu (W5 m ρ c (Proc.devRef .tc main_v43)) (W5 m ρ c (Proc.devRef .tc main_v44)) = _
  rw [at5_agg, at5_row]
  exact clip_v47 _ _ _ _
theorem at6_src : W6 m ρ c (Proc.devRef .tc main_v5) = val_main_v6 (F := Ideal) (arg m c main_arg1) :=
  (W6_of_ne m ρ c main_v5 (by decide)).trans (at5_src m ρ c)
theorem at6_tgt : W6 m ρ c (Proc.devRef .tc main_v6) = val_main_v7 (F := Ideal) (arg m c main_arg1) :=
  (W6_of_ne m ρ c main_v6 (by decide)).trans (at5_tgt m ρ c)
theorem at6_weight : W6 m ρ c (Proc.devRef .tc main_v29) = val_main_v30 (F := Ideal) (arg m c main_arg1) :=
  (W6_of_ne m ρ c main_v29 (by decide)).trans (at5_weight m ρ c)
theorem at6_arg (b : Ref sig .tc) (hb : b ∈ [main_arg4, main_arg5, main_arg6, main_arg7]) :
    W6 m ρ c (Proc.devRef .tc b) = arg m c b := by
  simp only [List.mem_cons, List.not_mem_nil, or_false] at hb
  rcases hb with rfl | rfl | rfl | rfl <;> exact (W6_of_ne m ρ c _ (by decide)).trans (at5_arg m ρ c _ (by decide))

/-! ## After the second product -/

theorem at7_prod : W7 m ρ c (Proc.devRef .tc main_v46)
    = val_main_v48 (F := Ideal) (arg m c main_arg0) (arg m c main_arg1) (arg m c main_arg2) (arg m c main_arg3) (arg m c main_arg4) := by
  refine (W7_arr m ρ c 2).trans ((Dense2.final (V6 m ρ) c).trans ?_)
  show dense (W6 m ρ c (Proc.devRef .tc main_v45)) (W6 m ρ c (Proc.devRef .tc main_arg4)) = _
  rw [at6_clip, at6_arg m ρ c main_arg4 (by decide)]
  exact dense_v48 _ _ _ _ _
theorem at7_src : W7 m ρ c (Proc.devRef .tc main_v5) = val_main_v6 (F := Ideal) (arg m c main_arg1) :=
  (W7_of_ne m ρ c main_v5 (by decide)).trans (at6_src m ρ c)
theorem at7_tgt : W7 m ρ c (Proc.devRef .tc main_v6) = val_main_v7 (F := Ideal) (arg m c main_arg1) :=
  (W7_of_ne m ρ c main_v6 (by decide)).trans (at6_tgt m ρ c)
theorem at7_weight : W7 m ρ c (Proc.devRef .tc main_v29) = val_main_v30 (F := Ideal) (arg m c main_arg1) :=
  (W7_of_ne m ρ c main_v29 (by decide)).trans (at6_weight m ρ c)
theorem at7_arg (b : Ref sig .tc) (hb : b ∈ [main_arg5, main_arg6, main_arg7]) :
    W7 m ρ c (Proc.devRef .tc b) = arg m c b := by
  simp only [List.mem_cons, List.not_mem_nil, or_false] at hb
  rcases hb with rfl | rfl | rfl <;> exact (W7_of_ne m ρ c _ (by decide)).trans (at6_arg m ρ c _ (by decide))

/-! ## At the second clipping's entry -/

theorem at8_agg : W8 m ρ c (Proc.devRef .tc main_v59)
    = val_main_v87 (F := Ideal) (arg m c main_arg0) (arg m c main_arg1) (arg m c main_arg2) (arg m c main_arg3) (arg m c main_arg4) :=
  Host.agg2_eq (W7 m ρ c) _ _ _ _ _ (at7_prod m ρ c) (at7_src m ρ c) (at7_tgt m ρ c) (at7_weight m ρ c)
theorem at8_row : W8 m ρ c (Proc.devRef .tc main_v60) = val_main_v88 (F := Ideal) (arg m c main_arg5) := by
  refine (Host.row3_eq (W7 m ρ c)).trans ?_
  rw [at7_arg m ρ c main_arg5 (by decide)]
  exact row_v88 _ _
theorem at8_arg (b : Ref sig .tc) (hb : b ∈ [main_arg6, main_arg7]) :
    W8 m ρ c (Proc.devRef .tc b) = arg m c b := by
  simp only [List.mem_cons, List.not_mem_nil, or_false] at hb
  rcases hb with rfl | rfl <;> exact (Host.keep3 (W7 m ρ c) _ (by decide)).trans (at7_arg m ρ c _ (by decide))

/-! ## After the second clipping -/

theorem at9_clip : W9 m ρ c (Proc.devRef .tc main_v61)
    = val_main_v91 (F := Ideal) (arg m c main_arg0) (arg m c main_arg1) (arg m c main_arg2) (arg m c main_arg3) (arg m c main_arg4) (arg m c main_arg5) := by
  refine (W9_arr m ρ c 2).trans ((Clip3.final (V8 m ρ) c).trans ?_)
  show biasRelu (W8 m ρ c (Proc.devRef .tc main_v59)) (W8 m ρ c (Proc.devRef .tc main_v60)) = _
  rw [at8_agg, at8_row]
  exact clip_v91 _ _ _ _ _ _
theorem at9_arg (b : Ref sig .tc) (hb : b ∈ [main_arg6, main_arg7]) :
    W9 m ρ c (Proc.devRef .tc b) = arg m c b := by
  simp only [List.mem_cons, List.not_mem_nil, or_false] at hb
  rcases hb with rfl | rfl <;> exact (W9_of_ne m ρ c _ (by decide)).trans (at8_arg m ρ c _ (by decide))

/-! ## At the head's entry, and after it -/

theorem at10_clip : W10 m ρ c (Proc.devRef .tc main_v61)
    = val_main_v91 (F := Ideal) (arg m c main_arg0) (arg m c main_arg1) (arg m c main_arg2) (arg m c main_arg3) (arg m c main_arg4) (arg m c main_arg5) :=
  (Host.keep4 (W9 m ρ c) main_v61 (by decide)).trans (at9_clip m ρ c)
theorem at10_weightMatrix : W10 m ρ c (Proc.devRef .tc main_arg6) = arg m c main_arg6 :=
  (Host.keep4 (W9 m ρ c) main_arg6 (by decide)).trans (at9_arg m ρ c main_arg6 (by decide))
theorem at10_row : W10 m ρ c (Proc.devRef .tc main_v62) = val_main_v93 (F := Ideal) (arg m c main_arg7) := by
  refine (Host.row4_eq (W9 m ρ c)).trans ?_
  rw [at9_arg m ρ c main_arg7 (by decide)]
  exact row_v93 _ _

/-- THE RESULT BUFFER at the last boundary: the reference's result term of the arguments. -/
theorem at11_head : W11 m ρ c (Proc.devRef .tc main_v63)
    = val_main_v95 (F := Ideal) (arg m c main_arg0) (arg m c main_arg1) (arg m c main_arg2) (arg m c main_arg3) (arg m c main_arg4)
        (arg m c main_arg5) (arg m c main_arg6) (arg m c main_arg7) := by
  refine (W11_arr m ρ c 3).trans ((Head4.final (V10 m ρ) c).trans ?_)
  show denseBias (W10 m ρ c (Proc.devRef .tc main_v61)) (W10 m ρ c (Proc.devRef .tc main_arg6)) (W10 m ρ c (Proc.devRef .tc main_v62)) = _
  rw [at10_clip, at10_weightMatrix, at10_row]
  exact head_v95 _ _ _ _ _ _ _ _

/-! ## The run, read -/

/-- Every weakly fair execution of the program terminates, nothing faulting, with the result buffer at the reference's
    result term of the launch's argument arrays, and the argument arrays as launched. -/
theorem run : θ_run defs (onTc (τ := τ) (main (F := Ideal))) ⟨m, fun _ => 0, ρ⟩ (fun r => ∀ c : Dev nD,
      r.2.mem ((c.tc : Thread nD τ).loc main_v63)
        = val_main_v95 (F := Ideal) (arg m c main_arg0) (arg m c main_arg1) (arg m c main_arg2) (arg m c main_arg3) (arg m c main_arg4)
            (arg m c main_arg5) (arg m c main_arg6) (arg m c main_arg7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (at11_head m ρ c), (h c).2⟩) (Cert.KernelIdeal.GenP.run_named m ρ)

end Cert.KernelIdeal.Through

end
-- ==== Proof.lean ====
/-
  A two-layer graph convolution with a linear head, its dense stages tiled over the node axis, against the plain
  network: over the extended reals the two compute the same `[50000, 16]` array of the same arguments.

  Both programs build from the edge list the self-looped source and target lists and the edge weights
  `deg^(-1/2) [source] * deg^(-1/2) [target]`, and then compute
  `out = relu (A (relu (A (x · W1) + b1) · W2) + b2) · Wfc + bfc`, where `A` gathers rows at the sources, scales them by
  the weights and scatter-adds them into the targets' rows. The graph part is the same host operations in both, matched
  one for one and never opened. They differ in the five dense stages (three products, two bias-and-clipping stages):
  the reference applies each to the whole `[50000, ·]` matrix at once, the program to ten blocks of 5000 rows, the
  weights and the bias row whole at every block. Each stage acts on the rows independently, so a block of the tiled
  stage is the same rows of the whole stage and the ten blocks tile the result (Region0 … Region4.lean); over the
  extended reals the short float format of the tiled products is the identity, a product into the zero accumulator is
  the host's product — one sum over the contracted axis —, and the clipping is the maximum with the same zero word
  (RefStages.lean). The reference recomputes the lists and the weights for its second layer; they are the first's
  (RefStages.lean). No law of arithmetic beyond these identities is used, so the finiteness of the inputs is not.
  Through.lean carries this from the launch to the result: the program's result buffer ends at the reference's result
  term of the arguments. The frames are the generated ones (the reference's is its run with the result dropped), and
  the idealization rewrote no operation.
-/
import proofs.«180696_j83958020702803_1_alg».proof.Defs
import proofs.«180696_j83958020702803_1_alg».proof.Proof.Gen.Kernel
import proofs.«180696_j83958020702803_1_alg».proof.Proof.Gen.Kernel.Skeleton
import proofs.«180696_j83958020702803_1_alg».proof.Proof.Gen.Kernel.Launch
import proofs.«180696_j83958020702803_1_alg».proof.Proof.Gen.Kernel.Points
import proofs.«180696_j83958020702803_1_alg».proof.Proof.Gen.Kernel.Frame
import proofs.«180696_j83958020702803_1_alg».proof.Proof.Gen.KernelIdeal
import proofs.«180696_j83958020702803_1_alg».proof.Proof.Gen.KernelIdeal.Skeleton
import proofs.«180696_j83958020702803_1_alg».proof.Proof.Gen.KernelIdeal.Launch
import proofs.«180696_j83958020702803_1_alg».proof.Proof.Gen.KernelIdeal.Points
import proofs.«180696_j83958020702803_1_alg».proof.Proof.Gen.KernelIdeal.Frame
import proofs.«180696_j83958020702803_1_alg».proof.Proof.Gen.ReferenceIdeal
import proofs.«180696_j83958020702803_1_alg».proof.Proof.Gen.Pre_finite_inputs
import proofs.«180696_j83958020702803_1_alg».proof.Proof.RefRun
import proofs.«180696_j83958020702803_1_alg».proof.Proof.RefRead
import proofs.«180696_j83958020702803_1_alg».proof.Proof.Through
import Idealize.ShloMosaic.Adequacy
import Idealize.ShloMosaic.Init

noncomputable section

namespace Cert.Proof

open Idealize.ShloMosaic Idealize.SL.Sem

/-- The program as printed runs and leaves its arguments as launched. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result, element by element over the
    extended reals: the reference's result term of the arguments, at which the program's result buffer ends (the run read
    through every boundary) and which the reference's run states. -/
theorem algebraic : Cert.algebraic_KernelIdeal_ReferenceIdeal := by
  intro m ρ m' ρ' _ hagree
  refine ⟨_, Cert.KernelIdeal.Through.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v95_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
